-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S10000x64 : Shape := ⟨2, ![10000, 64]⟩

abbrev nBuf : Space → Nat
  | .hbm => 66
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.MatmulRegion.lean ====
/-
  The first kernel region: twenty grid points, point `t` multiplying rows `5000 t … 5000 t + 4999` of the
  [100000, 128] array by the whole [128, 64] array. At the extended reals the change of float format before the
  product is the identity and the product into a zero accumulator is the plain sum over the 128 shared
  coordinates, so every point writes back ITS rows of one whole-array function, `prod`; the twenty row blocks
  tile the result, which therefore ends holding `prod` of the two arrays as the region found them.
-/
import proofs.«103385_j21062519620339_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.MatmulRegion

open Cert.KernelIdeal Cert.KernelIdeal.Gen Idealize.ShloMosaic Idealize.ShloMosaic.TcCoe Idealize.SL.Sem
open Idealize.ShloMosaic.Pipeline (Dat Cfg Window)

/-! ## The whole-array function -/

/-- Entry (r, k) of the left array, for the result index `i = (r, q)`. -/
abbrev rowAt (i : S100000x64.Idx) (k : Fin 128) : S100000x128.Idx := fun a => match a with
  | ⟨0, _⟩ => ⟨(i 0).val, (i 0).isLt⟩
  | ⟨1, _⟩ => ⟨k.val, k.isLt⟩
/-- Entry (k, q) of the right array, for the result index `i = (r, q)`. -/
abbrev colAt (i : S100000x64.Idx) (k : Fin 128) : S128x64.Idx := fun a => match a with
  | ⟨0, _⟩ => ⟨k.val, k.isLt⟩
  | ⟨1, _⟩ => ⟨(i 1).val, (i 1).isLt⟩

/-- The matrix product as sums: entry (r, q) is the sum over k of x (r, k) · w (k, q). -/
def prod (x : FVec Ideal S100000x128 .f32) (w : FVec Ideal S128x64 .f32) : FVec Ideal S100000x64 .f32 :=
  fun i => ∑ k : Fin 128, x (rowAt i k) * w (colAt i k)

/-! ## One block's product at an index -/

theorem lhs_axis0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_axis0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_axis1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, k) of a row block, for the block index `j = (p, q)`. -/
abbrev blkRowAt (j : S5000x64.Idx) (k : Fin 128) : S5000x128.Idx := fun a => match a with
  | ⟨0, _⟩ => ⟨(j 0).val, (j 0).isLt⟩
  | ⟨1, _⟩ => ⟨k.val, k.isLt⟩
/-- Entry (k, q) of the right array, for the block index `j = (p, q)`. -/
abbrev blkColAt (j : S5000x64.Idx) (k : Fin 128) : S128x64.Idx := fun a => match a with
  | ⟨0, _⟩ => ⟨k.val, k.isLt⟩
  | ⟨1, _⟩ => ⟨(j 1).val, (j 1).isLt⟩

/-- What the body stores, at a block index: the narrowing of both operands is the identity on the extended reals and
    the product is accumulated into zeros, so the entry is the sum over the shared coordinate. -/
theorem pay_apply (xb : FVec Ideal S5000x128 .f32) (wb : FVec Ideal S128x64 .f32) (j : S5000x64.Idx) :
    k0_pay1 (F := Ideal) xb wb j = ∑ k : Fin 128, xb (blkRowAt j k) * wb (blkColAt j k) := by
  unfold k0_pay1
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blkRowAt j k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx j ((ValueIdx.contrEquiv1 dot_S5000x128_S128x64_S5000x64_1_0_0_1_n_n 128 rfl rfl).symm k) = blkColAt j k := funext fun a => Fin.ext (by
    match a with
    | ⟨0, _⟩ => exact (rhs_axis0 _ _).trans hk
    | ⟨1, _⟩ => exact rhs_axis1 _ _)
  rw [el, er]
  rfl

/-! ## From the blocks to the array -/

section Array

variable (V : (c : Dev nD) → (b : Ref sig .tc) → Buf (Elt Ideal) ((c : Thread nD τ).loc b))

theorem origin_eq : (![0, 0] : Fin 2 → Nat) = fun _ => 0 := funext fun a => by fin_cases a <;> rfl

/-- The printed index maps over the grid: point `t` reads row block `t` of the left array and the one block of the
    right array, and writes row block `t` of the result. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `5000 t …` of `prod` of the two arrays as the region finds them: the left
    block's row `p` is row `5000 t + p` of the left array, the right block is the right array. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero origin_eq]
  simp only [View.ld_unit_zero (S := S5000x128) origin_eq, View.ld_unit_zero (S := S128x64) origin_eq]
  obtain ⟨e0, e1, e2, e3, e4, e5⟩ := index_maps t
  funext j
  show k0_pay1 (F := Ideal) (iblk0 V c 0 t) (iblk0 V c 1 t) j = prod (V c main_arg0) (V c main_arg3) (((cfg0.win 2).blk t).view.emb j)
  refine (pay_apply (iblk0 V c 0 t) (iblk0 V c 1 t) j).trans ?_
  unfold prod
  refine Finset.sum_congr rfl fun k _ => ?_
  have h0 : iblk0 V c 0 t (blkRowAt j k) = V c main_arg0 (rowAt (((cfg0.win 2).blk t).view.emb j) k) := by
    show V c main_arg0 (((cfg0.win 0).blk t).view.emb (blkRowAt j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (blkColAt j k) = V c main_arg3 (colAt (((cfg0.win 2).blk t).view.emb j) k) := by
    show V c main_arg3 (((cfg0.win 1).blk t).view.emb (blkColAt j k)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Row `r` of the result lies in the block of point `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  let t : Fin cfg0.N := ⟨(i 0).val / 5000, by show (i 0).val / 5000 < grid0.N; omega⟩
  obtain ⟨e0, e1, e2, e3, e4, e5⟩ := index_maps t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The region's result array after its run: the product of the two arrays as the region found them. -/
theorem arr_eq (c : Dev nD) : (dat0 V c).arrAt 2 cfg0.N = prod (V c main_arg0) (V c main_arg3) :=
  (dat0 V c).arrAt_eq_of_cover 2 (prod (V c main_arg0) (V c main_arg3)) (fun t _ => flushed_eq V c t) cover

end Array

end Cert.KernelIdeal.MatmulRegion

end
-- ==== Proof.BiasRegion.lean ====
/-
  The second kernel region: ten grid points, point `t` taking rows `10000 t … 10000 t + 9999` of the
  [100000, 64] array, adding the one row of the [1, 64] array to each of them, and keeping the larger of that
  sum and zero. Every point writes back ITS rows of one whole-array function, `biasRelu`; the ten row blocks tile
  the result, which therefore ends holding `biasRelu` of the two arrays as the region found them.
-/
import proofs.«103385_j21062519620339_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasRegion

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The whole-array function -/

/-- The bias row's entry for the result index `i = (r, q)`: column `q` of its one row. -/
abbrev biasAt (i : S100000x64.Idx) : S1x64.Idx := fun a => match a with
  | ⟨0, _⟩ => ⟨0, Nat.one_pos⟩
  | ⟨1, _⟩ => ⟨(i 1).val, (i 1).isLt⟩

/-- Entry (r, q) is the larger of x (r, q) + b (0, q) and zero. -/
def biasRelu (x : FVec Ideal S100000x64 .f32) (b : FVec Ideal S1x64 .f32) : FVec Ideal S100000x64 .f32 :=
  fun i => max (x i + b (biasAt i)) (Ideal.ofBits .f32 0x00000000#32)

/-! ## One block at an index -/

/-- What the body stores, at block index (p, q): the two same-shape casts are identities, the row is broadcast
    down the block, and the maximum is taken against the zero splat. -/
theorem pay_apply (xb : FVec Ideal S10000x64 .f32) (bb : FVec Ideal S1x64 .f32) (p : Fin 10000) (q : Fin 64) :
    k1_pay1 (F := Ideal) xb bb (ix2 p q) = max (xb (ix2 p q) + bb (ix2 (0 : Fin 1) q)) (Ideal.ofBits .f32 0x00000000#32) := by
  unfold k1_pay1
  rw [maximumf_apply, addf_apply, shapeCast_self, shapeCast_self, broadcastTo_1b_ab_apply]
  rfl

/-! ## From the blocks to the array -/

section Array

variable (V : (c : Dev nD) → (b : Ref sig .tc) → Buf (Elt Ideal) ((c : Thread nD τ).loc b))

theorem origin_eq : (![0, 0] : Fin 2 → Nat) = fun _ => 0 := funext fun a => by fin_cases a <;> rfl

/-- The printed index maps over the grid: point `t` reads row block `t` of the array and the one block of the row,
    and writes row block `t` of the result. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is rows `10000 t …` of `biasRelu` of the two arrays as the region finds them. -/
theorem flushed_eq (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero origin_eq]
  simp only [View.ld_unit_zero (S := S10000x64) origin_eq, View.ld_unit_zero (S := S1x64) origin_eq]
  obtain ⟨e0, e1, e2, e3, e4, e5⟩ := index_maps t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (ix2 p q) = biasRelu (V c main_v45) (V c main_v46) (((cfg1.win 2).blk t).view.emb (ix2 p q))
  refine (pay_apply (iblk1 V c 0 t) (iblk1 V c 1 t) p q).trans ?_
  unfold biasRelu
  have h0 : iblk1 V c 0 t (ix2 p q) = V c main_v45 (((cfg1.win 2).blk t).view.emb (ix2 p q)) := by
    show V c main_v45 (((cfg1.win 0).blk t).view.emb (ix2 p q)) = _
    refine congrArg (V c main_v45) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : iblk1 V c 1 t (ix2 (0 : Fin 1) q) = V c main_v46 (biasAt (((cfg1.win 2).blk t).view.emb (ix2 p q))) := by
    show V c main_v46 (((cfg1.win 1).blk t).view.emb (ix2 (0 : Fin 1) q)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]

/-- An index of the result is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- Row `r` of the result lies in the block of point `r / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  let t : Fin cfg1.N := ⟨(i 0).val / 10000, by show (i 0).val / 10000 < grid1.N; omega⟩
  obtain ⟨e0, e1, e2, e3, e4, e5⟩ := index_maps t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The region's result array after its run: `biasRelu` of the two arrays as the region found them. -/
theorem arr_eq (c : Dev nD) : (dat1 V c).arrAt 2 cfg1.N = biasRelu (V c main_v45) (V c main_v46) :=
  (dat1 V c).arrAt_eq_of_cover 2 (biasRelu (V c main_v45) (V c main_v46)) (fun t _ => flushed_eq V c t) cover

end Array

end Cert.KernelIdeal.BiasRegion

end
-- ==== Proof.KernelHost.lean ====
/-
  The host operations of the kernel's program, read at the boundaries of its two kernel regions.

  Before the first region the program computes, from the edge list and the edge weights alone, the sources and the
  targets with the self loops appended and the normalised weight of every edge; after it, it gathers the rows of the
  first region's result at the sources, scales them by the normalised weights and adds them up at the targets. These
  are operation for operation the reference's own, so each value is stated as the reference's stage of the same
  arguments and is never opened; only the first region's result enters as a free array.
-/
import proofs.«103385_j21062519620339_1_alg».proof.Proof.Gen.KernelIdeal.Frame
import proofs.«103385_j21062519620339_1_alg».proof.Proof.Gen.ReferenceIdeal.Read
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem
open Idealize.ShloMosaic.StableHlo

variable {F : FTy → Type} [FloatOps F]

/-- The weighted messages summed at their targets, for ANY array `xw` of transformed node features: row `s` of `xw`
    gathered for every edge `s → d` (self loops included), scaled by the edge's normalised weight, and added into row
    `d`. The index and weight stages are the reference's. -/
def aggOf (x1 : (⟨S2x1600000, .i32⟩ : BufTy).Contents (Elt F)) (x2 : (⟨S1600000, .f32⟩ : BufTy).Contents (Elt F))
    (xw : (⟨S100000x64, .f32⟩ : BufTy).Contents (Elt F)) : (⟨S100000x64, .f32⟩ : BufTy).Contents (Elt F) :=
  Host.scatterAdd Cert.ReferenceIdeal.scatter_S100000x64_S1700000x1_S1700000x64_1_0_0_1
    (Cert.ReferenceIdeal.Read.val_main_v43 (F := F)) (Cert.ReferenceIdeal.Read.val_main_v44 (F := F) x1)
    (mulf (Cert.ReferenceIdeal.Read.val_main_v41 (F := F) x1 x2)
      (Host.gather Cert.ReferenceIdeal.gather_S100000x64_S1700000x1_S1700000x64_1_0_n_n_0_1_164 xw (Cert.ReferenceIdeal.Read.val_main_v39 (F := F) x1)))

variable (m : (ℓ : Loc nD τ sig) → Buf (Elt F) ℓ) (ρ : Dev nD → PrngReg)

/-! ## At the first region's entry -/

set_option maxHeartbeats 4000000 in
/-- The sources with the self loops appended. -/
theorem entry0_src (c : Dev nD) : W3 m ρ c (Proc.devRef .tc main_v5)
    = Cert.ReferenceIdeal.Read.val_main_v5 (F := F) (m ((c.tc : Thread nD τ).loc main_arg1)) := by
  show StableHlo.after hostOps0_2 (StableHlo.after hostOps0_1 (StableHlo.after hostOps0 (W0 m ρ c))) (Proc.devRef .tc main_v5) = _
  after_results_simp
  rfl

set_option maxHeartbeats 4000000 in
/-- The targets with the self loops appended. -/
theorem entry0_dst (c : Dev nD) : W3 m ρ c (Proc.devRef .tc main_v6)
    = Cert.ReferenceIdeal.Read.val_main_v6 (F := F) (m ((c.tc : Thread nD τ).loc main_arg1)) := by
  show StableHlo.after hostOps0_2 (StableHlo.after hostOps0_1 (StableHlo.after hostOps0 (W0 m ρ c))) (Proc.devRef .tc main_v6) = _
  after_results_simp
  rfl

set_option maxHeartbeats 16000000 in
/-- Every edge's normalised weight: its weight between the inverse square roots of its two ends' degrees. -/
theorem entry0_norm (c : Dev nD) : W3 m ρ c (Proc.devRef .tc main_v31)
    = Cert.ReferenceIdeal.Read.val_main_v31 (F := F) (m ((c.tc : Thread nD τ).loc main_arg1)) (m ((c.tc : Thread nD τ).loc main_arg2)) := by
  show StableHlo.after hostOps0_2 (StableHlo.after hostOps0_1 (StableHlo.after hostOps0 (W0 m ρ c))) (Proc.devRef .tc main_v31) = _
  after_results_simp
  rfl

set_option maxHeartbeats 4000000 in
/-- No host operation writes an argument array. -/
theorem entry0_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp
set_option maxHeartbeats 4000000 in
theorem entry0_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp
set_option maxHeartbeats 4000000 in
theorem entry0_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp

/-! ## At the first region's exit: only its result array has changed -/

theorem exit0_src (c : Dev nD) : W4 m ρ c (Proc.devRef .tc main_v5)
    = Cert.ReferenceIdeal.Read.val_main_v5 (F := F) (m ((c.tc : Thread nD τ).loc main_arg1)) :=
  (W4_of_ne m ρ c main_v5 (by decide)).trans (entry0_src m ρ c)
theorem exit0_dst (c : Dev nD) : W4 m ρ c (Proc.devRef .tc main_v6)
    = Cert.ReferenceIdeal.Read.val_main_v6 (F := F) (m ((c.tc : Thread nD τ).loc main_arg1)) :=
  (W4_of_ne m ρ c main_v6 (by decide)).trans (entry0_dst m ρ c)
theorem exit0_norm (c : Dev nD) : W4 m ρ c (Proc.devRef .tc main_v31)
    = Cert.ReferenceIdeal.Read.val_main_v31 (F := F) (m ((c.tc : Thread nD τ).loc main_arg1)) (m ((c.tc : Thread nD τ).loc main_arg2)) :=
  (W4_of_ne m ρ c main_v31 (by decide)).trans (entry0_norm m ρ c)
theorem exit0_arg4 (c : Dev nD) : W4 m ρ c (Proc.devRef .tc main_arg4) = m ((c.tc : Thread nD τ).loc main_arg4) :=
  (W4_of_ne m ρ c main_arg4 (by decide)).trans (entry0_arg4 m ρ c)

/-! ## At the second region's entry -/

set_option maxHeartbeats 4000000 in
/-- The array the second region reads: the messages built from the first region's result, summed at their targets. -/
theorem entry1_agg (c : Dev nD) : W5 m ρ c (Proc.devRef .tc main_v45)
    = aggOf (F := F) (m ((c.tc : Thread nD τ).loc main_arg1)) (m ((c.tc : Thread nD τ).loc main_arg2)) (W4 m ρ c (Proc.devRef .tc main_v32)) := by
  show StableHlo.after hostOps1 (W4 m ρ c) (Proc.devRef .tc main_v45) = _
  after_results_simp
  rw [exit0_src, exit0_dst, exit0_norm]
  rfl

set_option maxHeartbeats 4000000 in
/-- The row the second region reads: the bias with a leading unit axis. -/
theorem entry1_bias (c : Dev nD) : W5 m ρ c (Proc.devRef .tc main_v46)
    = shapeCast S1x64 (m ((c.tc : Thread nD τ).loc main_arg4)) shapeCasts_S64_S1x64 := by
  show StableHlo.after hostOps1 (W4 m ρ c) (Proc.devRef .tc main_v46) = _
  after_results_simp
  rw [exit0_arg4]
  rfl

end Cert.KernelIdeal.HostRead

end
-- ==== Proof.KernelValue.lean ====
/-
  The kernel's program as one function of its argument arrays, at the extended reals:
  `out = biasRelu (aggOf edges weights (prod features W)) (bias as a row)` — the first region's product, the host's
  gather, scale and scatter-add of its rows, and the second region's bias and maximum with zero — read off the run of
  @main's segments: the result buffer at the last boundary is the second region's array, the second region's inputs
  are the host stretch's values over the first region's array, and the first region's inputs are argument arrays.
-/
import proofs.«103385_j21062519620339_1_alg».proof.Proof.KernelRun
import proofs.«103385_j21062519620339_1_alg».proof.Proof.MatmulRegion
import proofs.«103385_j21062519620339_1_alg».proof.Proof.BiasRegion
import proofs.«103385_j21062519620339_1_alg».proof.Proof.KernelHost

set_option maxRecDepth 16384

noncomputable section

namespace Cert.KernelIdeal.Result

open Cert.KernelIdeal Cert.KernelIdeal.Gen Idealize.ShloMosaic Idealize.ShloMosaic.TcCoe Idealize.SL.Sem
open Cert.KernelIdeal.MatmulRegion Cert.KernelIdeal.BiasRegion Cert.KernelIdeal.HostRead

/-- The program's result as one function of the five argument arrays. -/
def out (x0 : FVec Ideal S100000x128 .f32) (x1 : (⟨S2x1600000, .i32⟩ : BufTy).Contents (Elt Ideal)) (x2 : FVec Ideal S1600000 .f32)
    (x3 : FVec Ideal S128x64 .f32) (x4 : FVec Ideal S64 .f32) : FVec Ideal S100000x64 .f32 :=
  biasRelu (aggOf (F := Ideal) x1 x2 (prod x0 x3)) (shapeCast S1x64 x4 shapeCasts_S64_S1x64)

variable (m : (ℓ : Loc nD τ sig) → Buf (Elt Ideal) ℓ) (ρ : Dev nD → PrngReg)

/-- The first region's result array at its exit: the product of the first and fourth arguments. -/
theorem region0_out (c : Dev nD) : W4 m ρ c (Proc.devRef .tc main_v32)
    = prod (m ((c.tc : Thread nD τ).loc main_arg0)) (m ((c.tc : Thread nD τ).loc main_arg3)) :=
  (W4_arr m ρ c 2).trans ((MatmulRegion.arr_eq (V3 m ρ) c).trans (congrArg₂ prod (entry0_arg0 m ρ c) (entry0_arg3 m ρ c)))

/-- The array the second region reads. -/
theorem region1_in (c : Dev nD) : W5 m ρ c (Proc.devRef .tc main_v45)
    = aggOf (F := Ideal) (m ((c.tc : Thread nD τ).loc main_arg1)) (m ((c.tc : Thread nD τ).loc main_arg2))
        (prod (m ((c.tc : Thread nD τ).loc main_arg0)) (m ((c.tc : Thread nD τ).loc main_arg3))) :=
  (entry1_agg m ρ c).trans (congrArg (aggOf (F := Ideal) (m ((c.tc : Thread nD τ).loc main_arg1)) (m ((c.tc : Thread nD τ).loc main_arg2))) (region0_out m ρ c))

/-- The result buffer at the last boundary. -/
theorem last_eq (c : Dev nD) : W6 m ρ c (Proc.devRef .tc main_v47) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W6_arr m ρ c 2).trans ((BiasRegion.arr_eq (V5 m ρ) c).trans (congrArg₂ biasRelu (region1_in m ρ c) (entry1_bias m ρ c)))

/-- Every weakly fair execution of the kernel's program terminates without a fault, with the result buffer at `out` of
    the argument arrays and the argument arrays unchanged. -/
theorem run : θ_run defs (onTc (τ := τ) (main (F := Ideal))) ⟨m, fun _ => 0, ρ⟩ (fun r => ∀ c : Dev nD,
      r.2.mem ((c.tc : Thread nD τ).loc main_v47) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (last_eq m ρ c), (h c).2⟩) (run_out m ρ)

end Cert.KernelIdeal.Result

end
-- ==== Proof.RefSide.lean ====
/-
  The reference's result is the kernel program's function `out` of the same arguments, at the extended reals.

  The reference multiplies the node features by the weights on the host: at an index that is the same sum over the
  128 shared coordinates as `prod`. Its gather, scale and scatter-add of the product's rows are the stages `aggOf` is
  made of. It then adds the bias, broadcast first to one row and then down the rows, and takes the maximum with a
  zero splat: at index (r, q) the larger of agg (r, q) + b q and zero, which is `biasRelu` of the bias cast to a row.
-/
import proofs.«103385_j21062519620339_1_alg».proof.Proof.Gen.ReferenceIdeal.Run
import proofs.«103385_j21062519620339_1_alg».proof.Proof.Gen.ReferenceIdeal.Read
import proofs.«103385_j21062519620339_1_alg».proof.Proof.MatmulRegion
import proofs.«103385_j21062519620339_1_alg».proof.Proof.BiasRegion
import proofs.«103385_j21062519620339_1_alg».proof.Proof.KernelHost
import proofs.«103385_j21062519620339_1_alg».proof.Proof.KernelValue
import Idealize.ShloMosaic.Lib.ValueLayout

set_option maxRecDepth 16384

noncomputable section

namespace Cert.ReferenceIdeal.RefResult

open Cert.ReferenceIdeal Cert.ReferenceIdeal.Gen Idealize.ShloMosaic Idealize.ShloMosaic.TcCoe Idealize.SL.Sem
open Cert.ReferenceIdeal.Read
open Cert.KernelIdeal.MatmulRegion Cert.KernelIdeal.BiasRegion Cert.KernelIdeal.HostRead Cert.KernelIdeal.Result

/-- The host's product is the sum `prod` states: the same operand entries, (r, k) and (k, q), for every k. -/
theorem dot_eq (x0 : (⟨S100000x128, .f32⟩ : BufTy).Contents (Elt Ideal)) (x3 : (⟨S128x64, .f32⟩ : BufTy).Contents (Elt Ideal)) :
    val_main_v32 (F := Ideal) x0 x3 = prod x0 x3 := by
  funext i
  rw [val_main_v32_apply]
  rfl

/-- The reference's scatter-add is `aggOf` of its own product: the stages between are the ones `aggOf` names. -/
theorem agg_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x64, .f32⟩ : BufTy).Contents (Elt Ideal)) :
    val_main_v45 (F := Ideal) x0 x1 x2 x3 = aggOf (F := Ideal) x1 x2 (prod x0 x3) := by
  rw [← dot_eq]
  rfl

/-- The bias cast to a row, read at the entry `biasRelu` asks for, is the bias at the column: the same entry the
    reference's two broadcasts read. -/
theorem bias_row (x4 : (⟨S64, .f32⟩ : BufTy).Contents (Elt Ideal)) (i : S100000x64.Idx) :
    shapeCast Cert.KernelIdeal.S1x64 x4 Cert.KernelIdeal.Facts₀.shapeCasts_S64_S1x64 (biasAt i) = x4 (idx_main_v46 (idx_main_v47 i)) :=
  shapeCast_apply x4 _ (biasAt i) (idx_main_v46 (idx_main_v47 i)) (by
    rw [Shape.rowMajor_val_two, Shape.rowMajor_val_one]
    show (i 1).val = 0 * 64 + (i 1).val
    omega)

/-- The reference's result term is `out` of the argument arrays. -/
theorem res_eq (m : (ℓ : Loc nD τ sig) → Buf (Elt Ideal) ℓ) (c : Dev nD) :
    Cert.ReferenceIdeal.Value.res_main_v49 (F := Ideal) m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [val_main_v49_eq]
  funext i
  rw [val_main_v49_apply, val_main_v48_apply, val_main_v47_apply, val_main_v46_apply, val_main_call1_v0_apply, val_main_call1_cst_apply, agg_eq]
  unfold out biasRelu
  rw [bias_row]
  rfl

end Cert.ReferenceIdeal.RefResult

end
-- ==== Proof.lean ====
/-
  GCN message passing with symmetric edge-weighted normalisation, self loops, bias and ReLU:
  `out = relu (D^(-1/2) (A + I) D^(-1/2) (X W) + b)`.

  The kernel's program and the reference differ in two places only. The kernel forms `X W` in a pipelined region,
  twenty row blocks, each narrowed to a shorter float format and multiplied into a zero accumulator; the reference
  in one host product. At the extended reals the narrowing is the identity and both are the sum over the 128 shared
  coordinates (Proof/MatmulRegion.lean). The kernel adds the bias and takes the maximum with zero in a second region
  of ten row blocks; the reference on the host (Proof/BiasRegion.lean). Everything between — degrees, their inverse
  square roots, the gather of rows at the sources, the scaling, the scatter-add at the targets — is the same host
  operations in both, carried as the reference's own stages applied to whatever array the product is
  (Proof/KernelHost.lean). Proof/KernelValue.lean reads the kernel program's result off its run as one function
  `out` of the arguments, Proof/RefSide.lean shows the reference's result is `out` of the same arguments. No law of
  arithmetic beyond these identifications is used, so finiteness of the inputs is never opened.

  The three frames: the two kernel programs' are the generated ones; the reference's is its generated run with the
  result dropped. The idealization rewrote no operation, so `preserves` is trivial.
-/
import proofs.«103385_j21062519620339_1_alg».proof.Defs
import proofs.«103385_j21062519620339_1_alg».proof.Proof.Gen.Kernel
import proofs.«103385_j21062519620339_1_alg».proof.Proof.Gen.Kernel.Frame
import proofs.«103385_j21062519620339_1_alg».proof.Proof.Gen.KernelIdeal
import proofs.«103385_j21062519620339_1_alg».proof.Proof.Gen.KernelIdeal.Frame
import proofs.«103385_j21062519620339_1_alg».proof.Proof.Gen.ReferenceIdeal
import proofs.«103385_j21062519620339_1_alg».proof.Proof.Gen.ReferenceIdeal.Run
import proofs.«103385_j21062519620339_1_alg».proof.Proof.Gen.Pre_finite_inputs
import proofs.«103385_j21062519620339_1_alg».proof.Proof.KernelValue
import proofs.«103385_j21062519620339_1_alg».proof.Proof.RefSide

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at `out` of the arguments. -/
theorem algebraic : Cert.algebraic_KernelIdeal_ReferenceIdeal := by
  intro m ρ m' ρ' _ hagree
  refine ⟨fun c => Cert.KernelIdeal.Result.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefResult.res_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
